-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S8000000 : Shape := ⟨1, ![8000000]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  bcast_S_S8000000 : S_.BroadcastsInDim S8000000 (![] : Fin 0 → Fin S8000000.rank)
  reducesTo_S8000000_S_d0 : S8000000.ReducesTo [0] S_

variable [Facts]

def fn_part1 {F : FTy → Type} [FloatOps F] (main_arg4 : FVec F S8000000 .f32) (main_arg5 : FVec F S8000000 .f32) (main_arg6 : FVec F S8000000 .f32) (main_v13 : IVec S_ 1) (main_v16 : IVec S8000000 1) : IVec S_ 1 :=
  let main_c_5 : IVec S_ 1 := constantI S_ 1 1#1
  let main_v17 : IVec S_ 1 := (fun x v => Host.reduce IntOp.andi x v reducesTo_S8000000_S_d0 h_S_) main_v16 main_c_5
  let main_v18 : IVec S_ 1 := andi main_v13 main_v17
  let main_v19 : FVec F S8000000 .f32 := Host.absf main_arg4
  let main_cst_6 : FVec F S_ .f32 := constant S_ .f32 0x7F800000#32
  let main_v20 : FVec F S8000000 .f32 := broadcastInDim S8000000 ![] bcast_S_S8000000 main_cst_6
  let main_v21 : IVec S8000000 1 := cmpf .olt main_v19 main_v20
  let main_c_7 : IVec S_ 1 := constantI S_ 1 1#1
  let main_v22 : IVec S_ 1 := (fun x v => Host.reduce IntOp.andi x v reducesTo_S8000000_S_d0 h_S_) main_v21 main_c_7
  let main_v23 : IVec S_ 1 := andi main_v18 main_v22
  let main_v24 : FVec F S8000000 .f32 := Host.absf main_arg5
  let main_cst_8 : FVec F S_ .f32 := constant S_ .f32 0x7F800000#32
  let main_v25 : FVec F S8000000 .f32 := broadcastInDim S8000000 ![] bcast_S_S8000000 main_cst_8
  let main_v26 : IVec S8000000 1 := cmpf .olt main_v24 main_v25
  let main_c_9 : IVec S_ 1 := constantI S_ 1 1#1
  let main_v27 : IVec S_ 1 := (fun x v => Host.reduce IntOp.andi x v reducesTo_S8000000_S_d0 h_S_) main_v26 main_c_9
  let main_v28 : IVec S_ 1 := andi main_v23 main_v27
  let main_v29 : FVec F S8000000 .f32 := Host.absf main_arg6
  let main_cst_10 : FVec F S_ .f32 := constant S_ .f32 0x7F800000#32
  let main_v30 : FVec F S8000000 .f32 := broadcastInDim S8000000 ![] bcast_S_S8000000 main_cst_10
  let main_v31 : IVec S8000000 1 := cmpf .olt main_v29 main_v30
  let main_c_11 : IVec S_ 1 := constantI S_ 1 1#1
  let main_v32 : IVec S_ 1 := (fun x v => Host.reduce IntOp.andi x v reducesTo_S8000000_S_d0 h_S_) main_v31 main_c_11
  let main_v33 : IVec S_ 1 := andi main_v28 main_v32
  main_v33

def fn {F : FTy → Type} [FloatOps F] (main_arg0 : FVec F S4000000 .f32) (main_arg1 : FVec F S4000000 .f32) (main_arg2 : FVec F S4000000 .f32) (main_arg3 : FVec F S8000000 .f32) (main_arg4 : FVec F S8000000 .f32) (main_arg5 : FVec F S8000000 .f32) (main_arg6 : FVec F S8000000 .f32) (main_arg7 : IVec S8000000 32) (main_arg8 : IVec S8000000 32) : IVec S_ 1 :=
  let main_v0 : FVec F S4000000 .f32 := Host.absf main_arg0
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S4000000 .f32 := Host.absf main_arg1
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S8000000 .f32 := Host.absf main_arg3
  let main_cst_4 : FVec F S_ .f32 := constant S_ .f32 0x7F800000#32
  let main_v15 : FVec F S8000000 .f32 := broadcastInDim S8000000 ![] bcast_S_S8000000 main_cst_4
  let main_v16 : IVec S8000000 1 := cmpf .olt main_v14 main_v15
  fn_part1 (F := F) main_arg4 main_arg5 main_arg6 main_v13 main_v16
-- ==== Kernel.lean ====
abbrev S4000000 : Shape := ⟨1, ![4000000]⟩
abbrev S8000000 : Shape := ⟨1, ![8000000]⟩
abbrev S31250x128 : Shape := ⟨2, ![31250, 128]⟩
abbrev S_ : Shape := ⟨0, ![]⟩
abbrev S31280x128 : Shape := ⟨2, ![31280, 128]⟩
abbrev S3128x128 : Shape := ⟨2, ![3128, 128]⟩
abbrev S8000000x1 : Shape := ⟨2, ![8000000, 1]⟩
abbrev S62500x128 : Shape := ⟨2, ![62500, 128]⟩
abbrev S62560x128 : Shape := ⟨2, ![62560, 128]⟩

abbrev nBuf : Space → Nat
  | .hbm => 113
  | .vmem => 30
  | .smem => 0
  | _ => 0

abbrev bufTy : (tb : Table) → Fin (tcTables nBuf tb) → BufTy
  | .hbm, ⟨0, _⟩ => ⟨S4000000, .f32⟩
  | .hbm, ⟨1, _⟩ => ⟨S4000000, .f32⟩
  | .hbm, ⟨2, _⟩ => ⟨S4000000, .f32⟩
  | .hbm, ⟨3, _⟩ => ⟨S8000000, .f32⟩
  | .hbm, ⟨4, _⟩ => ⟨S8000000, .f32⟩
  | .hbm, ⟨5, _⟩ => ⟨S8000000, .f32⟩
  | .hbm, ⟨6, _⟩ => ⟨S8000000, .f32⟩
  | .hbm, ⟨7, _⟩ => ⟨S8000000, .i32⟩
  | .hbm, ⟨8, _⟩ => ⟨S8000000, .i32⟩
  | .hbm, ⟨9, _⟩ => ⟨S31250x128, .f32⟩
  | .hbm, ⟨10, _⟩ => ⟨S_, .i32⟩
  | .hbm, ⟨11, _⟩ => ⟨S_, .f32⟩
  | .hbm, ⟨12, _⟩ => ⟨S31280x128, .f32⟩
  | .hbm, ⟨13, _⟩ => ⟨S31250x128, .f32⟩
  | .hbm, ⟨14, _⟩ => ⟨S_, .i32⟩
  | .hbm, ⟨15, _⟩ => ⟨S_, .f32⟩
  | .hbm, ⟨16, _⟩ => ⟨S31280x128, .f32⟩
  | .hbm, ⟨17, _⟩ => ⟨S31280x128, .f32⟩
  | .hbm, ⟨18, _⟩ => ⟨S31250x128, .f32⟩
  | .hbm, ⟨19, _⟩ => ⟨S4000000, .f32⟩
  | .hbm, ⟨20, _⟩ => ⟨S_, .i32⟩
  | .hbm, ⟨21, _⟩ => ⟨S8000000, .i32⟩
  | .hbm, ⟨22, _⟩ => ⟨S8000000, .i1⟩
  | .hbm, ⟨23, _⟩ => ⟨S_, .i32⟩
  | .hbm, ⟨24, _⟩ => ⟨S8000000, .i32⟩
  | .hbm, ⟨25, _⟩ => ⟨S8000000, .i32⟩
  | .hbm, ⟨26, _⟩ => ⟨S8000000, .i32⟩
  | .hbm, ⟨27, _⟩ => ⟨S8000000x1, .i32⟩
  | .hbm, ⟨28, _⟩ => ⟨S8000000, .f32⟩
  | .hbm, ⟨29, _⟩ => ⟨S_, .i32⟩
  | .hbm, ⟨30, _⟩ => ⟨S8000000, .i32⟩
  | .hbm, ⟨31, _⟩ => ⟨S8000000, .i1⟩
  | .hbm, ⟨32, _⟩ => ⟨S_, .i32⟩
  | .hbm, ⟨33, _⟩ => ⟨S8000000, .i32⟩
  | .hbm, ⟨34, _⟩ => ⟨S8000000, .i32⟩
  | .hbm, ⟨35, _⟩ => ⟨S8000000, .i32⟩
  | .hbm, ⟨36, _⟩ => ⟨S8000000x1, .i32⟩
  | .hbm, ⟨37, _⟩ => ⟨S8000000, .f32⟩
  | .hbm, ⟨38, _⟩ => ⟨S62500x128, .f32⟩
  | .hbm, ⟨39, _⟩ => ⟨S_, .i32⟩
  | .hbm, ⟨40, _⟩ => ⟨S_, .f32⟩
  | .hbm, ⟨41, _⟩ => ⟨S62560x128, .f32⟩
  | .hbm, ⟨42, _⟩ => ⟨S62500x128, .f32⟩
  | .hbm, ⟨43, _⟩ => ⟨S_, .i32⟩
  | .hbm, ⟨44, _⟩ => ⟨S_, .f32⟩
  | .hbm, ⟨45, _⟩ => ⟨S62560x128, .f32⟩
  | .hbm, ⟨46, _⟩ => ⟨S62500x128, .f32⟩
  | .hbm, ⟨47, _⟩ => ⟨S_, .i32⟩
  | .hbm, ⟨48, _⟩ => ⟨S_, .f32⟩
  | .hbm, ⟨49, _⟩ => ⟨S62560x128, .f32⟩
  | .hbm, ⟨50, _⟩ => ⟨S62500x128, .f32⟩
  | .hbm, ⟨51, _⟩ => ⟨S_, .i32⟩
  | .hbm, ⟨52, _⟩ => ⟨S_, .f32⟩
  | .hbm, ⟨53, _⟩ => ⟨S62560x128, .f32⟩
  | .hbm, ⟨54, _⟩ => ⟨S62500x128, .f32⟩
  | .hbm, ⟨55, _⟩ => ⟨S_, .i32⟩
  | .hbm, ⟨56, _⟩ => ⟨S_, .f32⟩
  | .hbm, ⟨57, _⟩ => ⟨S62560x128, .f32⟩
  | .hbm, ⟨58, _⟩ => ⟨S62500x128, .f32⟩
  | .hbm, ⟨59, _⟩ => ⟨S_, .i32⟩
  | .hbm, ⟨60, _⟩ => ⟨S_, .f32⟩
  | .hbm, ⟨61, _⟩ => ⟨S62560x128, .f32⟩
  | .hbm, ⟨62, _⟩ => ⟨S62560x128, .f32⟩
  | .hbm, ⟨63, _⟩ => ⟨S62500x128, .f32⟩
  | .hbm, ⟨64, _⟩ => ⟨S8000000, .f32⟩
  | .hbm, ⟨65, _⟩ => ⟨S_, .f32⟩
  | .hbm, ⟨66, _⟩ => ⟨S4000000, .f32⟩
  | .hbm, ⟨67, _⟩ => ⟨S8000000x1, .i32⟩
  | .hbm, ⟨68, _⟩ => ⟨S4000000, .f32⟩
  | .hbm, ⟨69, _⟩ => ⟨S_, .f32⟩
  | .hbm, ⟨70, _⟩ => ⟨S4000000, .f32⟩
  | .hbm, ⟨71, _⟩ => ⟨S8000000x1, .i32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S8000000, .f32⟩
  | .hbm, ⟨76, _⟩ => ⟨S_, .f32⟩
  | .hbm, ⟨77, _⟩ => ⟨S4000000, .f32⟩
  | .hbm, ⟨78, _⟩ => ⟨S8000000x1, .i32⟩
  | .hbm, ⟨79, _⟩ => ⟨S4000000, .f32⟩
  | .hbm, ⟨80, _⟩ => ⟨S_, .f32⟩
  | .hbm, ⟨81, _⟩ => ⟨S4000000, .f32⟩
  | .hbm, ⟨82, _⟩ => ⟨S8000000x1, .i32⟩
  | .hbm, ⟨83, _⟩ => ⟨S4000000, .f32⟩
  | .hbm, ⟨84, _⟩ => ⟨S4000000, .f32⟩
  | .hbm, ⟨85, _⟩ => ⟨S_, .f32⟩
  | .hbm, ⟨86, _⟩ => ⟨S4000000, .f32⟩
  | .hbm, ⟨87, _⟩ => ⟨S8000000x1, .i32⟩
  | .hbm, ⟨88, _⟩ => ⟨S4000000, .f32⟩
  | .hbm, ⟨89, _⟩ => ⟨S_, .f32⟩
  | .hbm, ⟨90, _⟩ => ⟨S4000000, .f32⟩
  | .hbm, ⟨91, _⟩ => ⟨S8000000x1, .i32⟩
  | .hbm, ⟨92, _⟩ => ⟨S4000000, .f32⟩
  | .hbm, ⟨93, _⟩ => ⟨S4000000, .f32⟩
  | .hbm, ⟨94, _⟩ => ⟨S31250x128, .f32⟩
  | .hbm, ⟨95, _⟩ => ⟨S_, .i32⟩
  | .hbm, ⟨96, _⟩ => ⟨S_, .f32⟩
  | .hbm, ⟨97, _⟩ => ⟨S31280x128, .f32⟩
  | .hbm, ⟨98, _⟩ => ⟨S31250x128, .f32⟩
  | .hbm, ⟨99, _⟩ => ⟨S_, .i32⟩
  | .hbm, ⟨100, _⟩ => ⟨S_, .f32⟩
  | .hbm, ⟨101, _⟩ => ⟨S31280x128, .f32⟩
  | .hbm, ⟨102, _⟩ => ⟨S31250x128, .f32⟩
  | .hbm, ⟨103, _⟩ => ⟨S_, .i32⟩
  | .hbm, ⟨104, _⟩ => ⟨S_, .f32⟩
  | .hbm, ⟨105, _⟩ => ⟨S31280x128, .f32⟩
  | .hbm, ⟨106, _⟩ => ⟨S31250x128, .f32⟩
  | .hbm, ⟨107, _⟩ => ⟨S_, .i32⟩
  | .hbm, ⟨108, _⟩ => ⟨S_, .f32⟩
  | .hbm, ⟨109, _⟩ => ⟨S31280x128, .f32⟩
  | .hbm, ⟨110, _⟩ => ⟨S31280x128, .f32⟩
  | .hbm, ⟨111, _⟩ => ⟨S31250x128, .f32⟩
  | .hbm, ⟨112, _⟩ => ⟨S4000000, .f32⟩
  | .local _ .vmem, ⟨0, _⟩ => ⟨S3128x128, .f32⟩
  | .local _ .vmem, ⟨1, _⟩ => ⟨S3128x128, .f32⟩
  | .local _ .vmem, ⟨2, _⟩ => ⟨S3128x128, .f32⟩
  | .local _ .vmem, ⟨3, _⟩ => ⟨S3128x128, .f32⟩
  | .local _ .vmem, ⟨4, _⟩ => ⟨S3128x128, .f32⟩
  | .local _ .vmem, ⟨5, _⟩ => ⟨S3128x128, .f32⟩
  | .local _ .vmem, ⟨6, _⟩ => ⟨S3128x128, .f32⟩
  | .local _ .vmem, ⟨7, _⟩ => ⟨S3128x128, .f32⟩
  | .local _ .vmem, ⟨8, _⟩ => ⟨S3128x128, .f32⟩
  | .local _ .vmem, ⟨9, _⟩ => ⟨S3128x128, .f32⟩
  | .local _ .vmem, ⟨10, _⟩ => ⟨S3128x128, .f32⟩
  | .local _ .vmem, ⟨11, _⟩ => ⟨S3128x128, .f32⟩
  | .local _ .vmem, ⟨12, _⟩ => ⟨S3128x128, .f32⟩
  | .local _ .vmem, ⟨13, _⟩ => ⟨S3128x128, .f32⟩
  | .local _ .vmem, ⟨14, _⟩ => ⟨S3128x128, .f32⟩
  | .local _ .vmem, ⟨15, _⟩ => ⟨S3128x128, .f32⟩
  | .local _ .vmem, ⟨16, _⟩ => ⟨S3128x128, .f32⟩
  | .local _ .vmem, ⟨17, _⟩ => ⟨S3128x128, .f32⟩
  | .local _ .vmem, ⟨18, _⟩ => ⟨S3128x128, .f32⟩
  | .local _ .vmem, ⟨19, _⟩ => ⟨S3128x128, .f32⟩
  | .local _ .vmem, ⟨20, _⟩ => ⟨S3128x128, .f32⟩
  | .local _ .vmem, ⟨21, _⟩ => ⟨S3128x128, .f32⟩
  | .local _ .vmem, ⟨22, _⟩ => ⟨S3128x128, .f32⟩
  | .local _ .vmem, ⟨23, _⟩ => ⟨S3128x128, .f32⟩
  | .local _ .vmem, ⟨24, _⟩ => ⟨S3128x128, .f32⟩
  | .local _ .vmem, ⟨25, _⟩ => ⟨S3128x128, .f32⟩
  | .local _ .vmem, ⟨26, _⟩ => ⟨S3128x128, .f32⟩
  | .local _ .vmem, ⟨27, _⟩ => ⟨S3128x128, .f32⟩
  | .local _ .vmem, ⟨28, _⟩ => ⟨S3128x128, .f32⟩
  | .local _ .vmem, ⟨29, _⟩ => ⟨S3128x128, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_call3_v0 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_call4_v0 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_call5_v0 : Ref sig .tc := ⟨.hbm, 52, rfl⟩
abbrev main_v28 : Ref sig .tc := ⟨.hbm, 53, rfl⟩
abbrev main_v29 : Ref sig .tc := ⟨.hbm, 54, rfl⟩
abbrev main_c_9 : Ref sig .tc := ⟨.hbm, 55, rfl⟩
abbrev main_call6_v0 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_call7_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_12 : Ref sig .tc := ⟨.hbm, 74, rfl⟩
abbrev main_v43 : Ref sig .tc := ⟨.hbm, 75, rfl⟩
abbrev main_cst_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_15 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_16 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_17 : Ref sig .tc := ⟨.hbm, 95, rfl⟩
abbrev main_call8_v0 : Ref sig .tc := ⟨.hbm, 96, rfl⟩
abbrev main_v59 : Ref sig .tc := ⟨.hbm, 97, rfl⟩
abbrev main_v60 : Ref sig .tc := ⟨.hbm, 98, rfl⟩
abbrev main_c_18 : Ref sig .tc := ⟨.hbm, 99, rfl⟩
abbrev main_call9_v0 : Ref sig .tc := ⟨.hbm, 100, rfl⟩
abbrev main_v61 : Ref sig .tc := ⟨.hbm, 101, rfl⟩
abbrev main_v62 : Ref sig .tc := ⟨.hbm, 102, rfl⟩
abbrev main_c_19 : Ref sig .tc := ⟨.hbm, 103, rfl⟩
abbrev main_call10_v0 : Ref sig .tc := ⟨.hbm, 104, rfl⟩
abbrev main_v63 : Ref sig .tc := ⟨.hbm, 105, rfl⟩
abbrev main_v64 : Ref sig .tc := ⟨.hbm, 106, rfl⟩
abbrev main_c_20 : Ref sig .tc := ⟨.hbm, 107, rfl⟩
abbrev main_call11_v0 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S3128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S4000000_S31250x128 : S4000000.ShapeCasts S31250x128
  pads_S31250x128_S31280x128_0300_000 : S31250x128.Pads (![0, 0] : Fin 2 → Nat) ![30, 0] ![0, 0] S31280x128
  h_S_ : 0 < S_.numel
  inb_S3128x128_S3128x128_0_0 : ∀ a, (![0, 0] : Fin 2 → Nat) a + S3128x128.size a ≤ S3128x128.size a
  h_S3128x128 : 0 < S3128x128.numel
  shapeCasts_S3128x128_S3128x128 : S3128x128.ShapeCasts S3128x128
  slices_S31280x128_S31250x128_0_0 : S31280x128.Slices ![0, 0] S31250x128
  shapeCasts_S31250x128_S4000000 : S31250x128.ShapeCasts S4000000
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000_S62500x128 : S8000000.ShapeCasts S62500x128
  pads_S62500x128_S62560x128_0600_000 : S62500x128.Pads (![0, 0] : Fin 2 → Nat) ![60, 0] ![0, 0] S62560x128
  slices_S62560x128_S62500x128_0_0 : S62560x128.Slices ![0, 0] S62500x128
  shapeCasts_S62500x128_S8000000 : S62500x128.ShapeCasts S8000000
  bcast_S_S4000000 : S_.BroadcastsInDim S4000000 (![] : Fin 0 → Fin S4000000.rank)
  gather_S4000000_S8000000x1_S8000000_n_0_n_n_0_1_1_wf : GatherDims.WF S4000000 S8000000x1 S8000000 [] [0] [] [0] [] 1 ![1]
  scatter_S4000000_S8000000x1_S8000000_n_0_0_1_wf : ScatterDims.WF S4000000 S8000000x1 S8000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3128x128.size a ≤ S31280x128.size a
  hwx0_0 : ∀ i : grid0.Coords, EltTy.bits .f32 = 32 ∨ (Rect.block (s := S31280x128) S3128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3128x128.size a ≤ S31280x128.size a
  hwx0_1 : ∀ i : grid0.Coords, EltTy.bits .f32 = 32 ∨ (Rect.block (s := S31280x128) S3128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3128x128.size a ≤ S31280x128.size a
  hwx0_2 : ∀ i : grid0.Coords, EltTy.bits .f32 = 32 ∨ (Rect.block (s := S31280x128) S3128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3128x128.size a ≤ S62560x128.size a
  hwx1_0 : ∀ i : grid1.Coords, EltTy.bits .f32 = 32 ∨ (Rect.block (s := S62560x128) S3128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3128x128.size a ≤ S62560x128.size a
  hwx1_1 : ∀ i : grid1.Coords, EltTy.bits .f32 = 32 ∨ (Rect.block (s := S62560x128) S3128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3128x128.size a ≤ S62560x128.size a
  hwx1_2 : ∀ i : grid1.Coords, EltTy.bits .f32 = 32 ∨ (Rect.block (s := S62560x128) S3128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3128x128.size a ≤ S62560x128.size a
  hwx1_3 : ∀ i : grid1.Coords, EltTy.bits .f32 = 32 ∨ (Rect.block (s := S62560x128) S3128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3128x128.size a ≤ S62560x128.size a
  hwx1_4 : ∀ i : grid1.Coords, EltTy.bits .f32 = 32 ∨ (Rect.block (s := S62560x128) S3128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3128x128.size a ≤ S62560x128.size a
  hwx1_5 : ∀ i : grid1.Coords, EltTy.bits .f32 = 32 ∨ (Rect.block (s := S62560x128) S3128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3128x128.size a ≤ S62560x128.size a
  hwx1_6 : ∀ i : grid1.Coords, EltTy.bits .f32 = 32 ∨ (Rect.block (s := S62560x128) S3128x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3128x128.size a ≤ S31280x128.size a
  hwx2_0 : ∀ i : grid2.Coords, EltTy.bits .f32 = 32 ∨ (Rect.block (s := S31280x128) S3128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3128x128.size a ≤ S31280x128.size a
  hwx2_1 : ∀ i : grid2.Coords, EltTy.bits .f32 = 32 ∨ (Rect.block (s := S31280x128) S3128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3128x128.size a ≤ S31280x128.size a
  hwx2_2 : ∀ i : grid2.Coords, EltTy.bits .f32 = 32 ∨ (Rect.block (s := S31280x128) S3128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3128x128.size a ≤ S31280x128.size a
  hwx2_3 : ∀ i : grid2.Coords, EltTy.bits .f32 = 32 ∨ (Rect.block (s := S31280x128) S3128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3128x128.size a ≤ S31280x128.size a
  hwx2_4 : ∀ i : grid2.Coords, EltTy.bits .f32 = 32 ∨ (Rect.block (s := S31280x128) S3128x128.size (cc2_transform_4 i) (hinb2_4 i)).WholeWords (EltTy.packing .f32)

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf
def scatter_S4000000_S8000000x1_S8000000_n_0_0_1 : ScatterDims S4000000 S8000000x1 S8000000 where
  updateWindowDims := []
  insertedWindowDims := [0]
  scatterDimsToOperandDims := [0]
  indexVectorDim := 1
  wf := scatter_S4000000_S8000000x1_S8000000_n_0_0_1_wf

abbrev win0_0 : Pipeline.Window sig grid0 :=
  Pipeline.Window.ofSpec (Memref.whole main_v1) S3128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S3128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S3128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S3128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S3128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S3128x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32) S3128x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33) S3128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S3128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S3128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S3128x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S3128x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66) S3128x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4000000 : Shape := ⟨1, ![4000000]⟩
abbrev S8000000 : Shape := ⟨1, ![8000000]⟩
abbrev S_ : Shape := ⟨0, ![]⟩
abbrev S8000000x1 : Shape := ⟨2, ![8000000, 1]⟩

abbrev nBuf : Space → Nat
  | .hbm => 85
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S4000000, .f32⟩
  | .hbm, ⟨2, _⟩ => ⟨S4000000, .f32⟩
  | .hbm, ⟨3, _⟩ => ⟨S8000000, .f32⟩
  | .hbm, ⟨4, _⟩ => ⟨S8000000, .f32⟩
  | .hbm, ⟨5, _⟩ => ⟨S8000000, .f32⟩
  | .hbm, ⟨6, _⟩ => ⟨S8000000, .f32⟩
  | .hbm, ⟨7, _⟩ => ⟨S8000000, .i32⟩
  | .hbm, ⟨8, _⟩ => ⟨S8000000, .i32⟩
  | .hbm, ⟨9, _⟩ => ⟨S_, .f32⟩
  | .hbm, ⟨10, _⟩ => ⟨S4000000, .f32⟩
  | .hbm, ⟨11, _⟩ => ⟨S4000000, .f32⟩
  | .hbm, ⟨12, _⟩ => ⟨S4000000, .f32⟩
  | .hbm, ⟨13, _⟩ => ⟨S_, .i32⟩
  | .hbm, ⟨14, _⟩ => ⟨S8000000, .i32⟩
  | .hbm, ⟨15, _⟩ => ⟨S8000000, .i1⟩
  | .hbm, ⟨16, _⟩ => ⟨S_, .i32⟩
  | .hbm, ⟨17, _⟩ => ⟨S8000000, .i32⟩
  | .hbm, ⟨18, _⟩ => ⟨S8000000, .i32⟩
  | .hbm, ⟨19, _⟩ => ⟨S8000000, .i32⟩
  | .hbm, ⟨20, _⟩ => ⟨S8000000x1, .i32⟩
  | .hbm, ⟨21, _⟩ => ⟨S8000000, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S8000000, .f32⟩
  | .hbm, ⟨32, _⟩ => ⟨S_, .f32⟩
  | .hbm, ⟨33, _⟩ => ⟨S8000000, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000, .f32⟩
  | .hbm, ⟨39, _⟩ => ⟨S_, .f32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S8000000, .f32⟩
  | .hbm, ⟨44, _⟩ => ⟨S_, .f32⟩
  | .hbm, ⟨45, _⟩ => ⟨S8000000, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S8000000, .f32⟩
  | .hbm, ⟨50, _⟩ => ⟨S_, .f32⟩
  | .hbm, ⟨51, _⟩ => ⟨S4000000, .f32⟩
  | .hbm, ⟨52, _⟩ => ⟨S8000000x1, .i32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S8000000x1, .i32⟩
  | .hbm, ⟨57, _⟩ => ⟨S4000000, .f32⟩
  | .hbm, ⟨58, _⟩ => ⟨S4000000, .f32⟩
  | .hbm, ⟨59, _⟩ => ⟨S_, .f32⟩
  | .hbm, ⟨60, _⟩ => ⟨S8000000, .f32⟩
  | .hbm, ⟨61, _⟩ => ⟨S_, .f32⟩
  | .hbm, ⟨62, _⟩ => ⟨S4000000, .f32⟩
  | .hbm, ⟨63, _⟩ => ⟨S8000000x1, .i32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S8000000x1, .i32⟩
  | .hbm, ⟨68, _⟩ => ⟨S4000000, .f32⟩
  | .hbm, ⟨69, _⟩ => ⟨S4000000, .f32⟩
  | .hbm, ⟨70, _⟩ => ⟨S_, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S8000000x1, .i32⟩
  | .hbm, ⟨77, _⟩ => ⟨S4000000, .f32⟩
  | .hbm, ⟨78, _⟩ => ⟨S_, .f32⟩
  | .hbm, ⟨79, _⟩ => ⟨S4000000, .f32⟩
  | .hbm, ⟨80, _⟩ => ⟨S8000000x1, .i32⟩
  | .hbm, ⟨81, _⟩ => ⟨S4000000, .f32⟩
  | .hbm, ⟨82, _⟩ => ⟨S4000000, .f32⟩
  | .hbm, ⟨83, _⟩ => ⟨S4000000, .f32⟩
  | .hbm, ⟨84, _⟩ => ⟨S4000000, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S_S8000000 : S_.BroadcastsInDim S8000000 (![] : Fin 0 → Fin S8000000.rank)
  bcast_S8000000_S8000000x1_0 : S8000000.BroadcastsInDim S8000000x1 (![0] : Fin 1 → Fin S8000000x1.rank)
  gather_S4000000_S8000000x1_S8000000_n_0_n_n_0_1_1_wf : GatherDims.WF S4000000 S8000000x1 S8000000 [] [0] [] [0] [] 1 ![1]
  scatter_S4000000_S8000000x1_S8000000_n_0_0_1_wf : ScatterDims.WF S4000000 S8000000x1 S8000000 [] [0] [0] 1

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf
def scatter_S4000000_S8000000x1_S8000000_n_0_0_1 : ScatterDims S4000000 S8000000x1 S8000000 where
  updateWindowDims := []
  insertedWindowDims := [0]
  scatterDimsToOperandDims := [0]
  indexVectorDim := 1
  wf := scatter_S4000000_S8000000x1_S8000000_n_0_0_1_wf

class Facts : Prop extends Facts₀ where

variable [Facts]
-- ==== Proof.Region0.lean ====
/-
  The first launch (ten row-blocks of 3128 rows over a 31280 x 128 array). Its body stores, entry by entry,
  `k * x - y` of its two input blocks (`k` the product of ice density and gravity as a 32-bit float), and every
  window moves with the grid point: block `t` is rows `3128 t … 3128 t + 3127`. So what point `t` writes back is
  block `t` of the array `i ↦ k * x i - y i` of the two input arrays, the ten blocks tile the output array, and the
  output array ends as that function of the input arrays, index by index.
-/
import proofs.«180901_j15341623181950_1_alg».proof.Proof.Gen.KernelIdeal.Frame
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)

variable {F : FTy → Type} [FloatOps F]

/-- One entry of the overburden pressure: `k * h - p`. -/
def obS (h p : F .f32) : F .f32 :=
  FloatOps.subf (FloatOps.mulf (Scalar.ofBits .f32 0x460C8F14#32) h) p

/-- The same, entry by entry, over arrays of any one shape. -/
def ob (s : Shape) (h p : s.Idx → Elt F .f32) : s.Idx → Elt F .f32 := fun i => obS (h i) (p i)

theorem hz : (![0, 0] : Fin 2 → Nat) = fun _ => 0 := funext fun a => by fin_cases a <;> rfl

/-- The body's stored value is that operation of its two loaded blocks. -/
theorem pay_eq (x0 x1 : Vec F S3128x128 .f32) : k0_pay1 x0 x1 = ob S3128x128 x0 x1 := by
  unfold k0_pay1
  simp only [shapeCast_self]
  rfl

/-- The three windows' index maps agree at every grid point, and the output's block index is the point's row-block. -/
theorem idx_facts : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2) :=
  (by decide +kernel : ∀ t : Fin grid0.N, _)

/-- Every row-block of the output array is some point's. -/
theorem idx_onto : ∀ q : Fin 10, ∃ t : Fin cfg0.N, win0_2.index t = ![q.val, 0] :=
  (by decide +kernel : ∀ q : Fin 10, ∃ t : Fin grid0.N, win0_2.index t = ![q.val, 0])

variable (V : (c : Dev nD) → (b : Ref sig .tc) → Buf (Elt F) ((c : Thread nD τ).loc b))

/-- Input window 0's block at point `t` reads its array where the output's block lies. -/
theorem iblk_0 (c : Dev nD) (t : Fin cfg0.N) (j : S3128x128.Idx) :
    iblk0 V c 0 t j = V c main_v1 (((cfg0.win 2).blk t).view.emb j) := by
  obtain ⟨e0, e1, e2, e3⟩ := idx_facts t
  show V c main_v1 (((cfg0.win 0).blk t).view.emb j) = V c main_v1 (((cfg0.win 2).blk t).view.emb j)
  refine congrArg (V c main_v1) (funext fun a => Fin.ext ?_)
  match a with
  | ⟨0, _⟩ => show win0_0.index t (0 : Fin 2) * 3128 + 1 * (j 0).val = win0_2.index t (0 : Fin 2) * 3128 + 1 * (j 0).val; omega
  | ⟨1, _⟩ => show win0_0.index t (1 : Fin 2) * 128 + 1 * (j 1).val = win0_2.index t (1 : Fin 2) * 128 + 1 * (j 1).val; omega

/-- Input window 1's block at point `t` reads its array where the output's block lies. -/
theorem iblk_1 (c : Dev nD) (t : Fin cfg0.N) (j : S3128x128.Idx) :
    iblk0 V c 1 t j = V c main_v3 (((cfg0.win 2).blk t).view.emb j) := by
  obtain ⟨e0, e1, e2, e3⟩ := idx_facts t
  show V c main_v3 (((cfg0.win 1).blk t).view.emb j) = V c main_v3 (((cfg0.win 2).blk t).view.emb j)
  refine congrArg (V c main_v3) (funext fun a => Fin.ext ?_)
  match a with
  | ⟨0, _⟩ => show win0_1.index t (0 : Fin 2) * 3128 + 1 * (j 0).val = win0_2.index t (0 : Fin 2) * 3128 + 1 * (j 0).val; omega
  | ⟨1, _⟩ => show win0_1.index t (1 : Fin 2) * 128 + 1 * (j 1).val = win0_2.index t (1 : Fin 2) * 128 + 1 * (j 1).val; omega

/-- What point `t` writes back is block `t` of the operation applied to the whole input arrays. -/
theorem flushed_eq (c : Dev nD) (t : Fin cfg0.N) :
    (dat0 V c).flushed 2 t = ((cfg0.win 2).blk t).view.read (Elt F) (ob S31280x128 (V c main_v1) (V c main_v3)) := by
  show (cfg0.win 2).cut (grid0.coords t) ((dat0 V c).after 2 t) = _
  rw [after0_2]
  unfold out0_2
  rw [View.canon_unit_zero hz]
  simp only [View.ld_unit_zero (S := S3128x128) hz]
  rw [pay_eq]
  funext j
  show obS (iblk0 V c 0 t j) (iblk0 V c 1 t j)
    = obS (V c main_v1 (((cfg0.win 2).blk t).view.emb j)) (V c main_v3 (((cfg0.win 2).blk t).view.emb j))
  rw [iblk_0, iblk_1]

/-- An index of the output array is in point `t`'s block iff each coordinate is in the block's range. -/
theorem mem_blk (t : Fin cfg0.N) (i : S31280x128.Idx) :
    i ∈ ((cfg0.win 2).blk t).view.set ↔ ∀ a : Fin 2, win0_2.index t a * S3128x128.size a ≤ (i a).val ∧ (i a).val < win0_2.index t a * S3128x128.size a + S3128x128.size a := by
  show i ∈ ((View.whole main_v4).slice (win0_2.rect t)).set ↔ _
  rw [View.set_slice_whole, Rect.mem_set_unit]
  exact Iff.rfl

/-- The ten blocks tile the output array: row `r` is in block `r / 3128`. -/
theorem cover (i : S31280x128.Idx) :
    ∃ t : Fin cfg0.N, (cfg0.win 2).flush t = true ∧ i ∈ ((cfg0.win 2).blk t).view.set := by
  have hi0 : (i 0).val < 31280 := (i 0).isLt
  have hi1 : (i 1).val < 128 := (i 1).isLt
  obtain ⟨t, ht⟩ := idx_onto ⟨(i 0).val / 3128, by omega⟩
  have q0 : win0_2.index t (0 : Fin 2) = (i 0).val / 3128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 3128 ≤ (i 0).val ∧ (i 0).val < win0_2.index t (0 : Fin 2) * 3128 + 3128; omega
  | ⟨1, _⟩ => show win0_2.index t (1 : Fin 2) * 128 ≤ (i 1).val ∧ (i 1).val < win0_2.index t (1 : Fin 2) * 128 + 128; omega

/-- The output array after the launch: the operation of the two input arrays as the launch found them, index by index. -/
theorem final (c : Dev nD) : (dat0 V c).arrAt 2 cfg0.N = ob S31280x128 (V c main_v1) (V c main_v3) :=
  (dat0 V c).arrAt_eq_of_cover 2 _ (fun t _ => flushed_eq V c t) cover

end Cert.KernelIdeal.Region0

end
-- ==== Proof.Region1.lean ====
/-
  The second launch (twenty row-blocks of 3128 rows over a 62560 x 128 array). Its body stores, entry by entry, the
  right-hand side of the conduit evolution equation of its six input blocks: melt opening `(c_m * q) * g` plus gap
  opening `u * 0.1` minus creep closure `(c_c * ((e * e) * e)) * s`, where `e = 0.5 * (p_head + p_tail)` is the
  effective pressure at the link. Every window moves with the grid point, so point `t` writes back block `t` of that
  operation applied to the whole input arrays, the twenty blocks tile the output array, and the output array ends as
  that function of the six input arrays, index by index.
-/
import proofs.«180901_j15341623181950_1_alg».proof.Proof.Gen.KernelIdeal.Frame
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.Pipeline (Dat)

variable {F : FTy → Type} [FloatOps F]

/-- The effective pressure at a link: half the sum of the overburden at its two end nodes. -/
def effS (oh ot : F .f32) : F .f32 := FloatOps.mulf (Scalar.ofBits .f32 0x3F000000#32) (FloatOps.addf oh ot)

/-- One entry of the link's right-hand side: melt opening plus gap opening minus creep closure. -/
def rhsS (oh ot wf hg isv ca : F .f32) : F .f32 :=
  FloatOps.subf
    (FloatOps.addf (FloatOps.mulf (FloatOps.mulf (Scalar.ofBits .f32 0x315FB32A#32) wf) hg)
      (FloatOps.mulf isv (Scalar.ofBits .f32 0x3DCCCCCD#32)))
    (FloatOps.mulf (FloatOps.mulf (Scalar.ofBits .f32 0x17098C84#32)
      (FloatOps.mulf (FloatOps.mulf (effS oh ot) (effS oh ot)) (effS oh ot))) ca)

/-- The same, entry by entry, over arrays of any one shape. -/
def rhs (s : Shape) (oh ot wf hg isv ca : s.Idx → Elt F .f32) : s.Idx → Elt F .f32 :=
  fun i => rhsS (oh i) (ot i) (wf i) (hg i) (isv i) (ca i)

theorem hz : (![0, 0] : Fin 2 → Nat) = fun _ => 0 := funext fun a => by fin_cases a <;> rfl

/-- The body's stored value is that operation of its six loaded blocks. -/
theorem pay_eq (x0 x1 x2 x3 x4 x5 : Vec F S3128x128 .f32) :
    k1_pay1 x0 x1 x2 x3 x4 x5 = rhs S3128x128 x0 x1 x2 x3 x4 x5 := by
  unfold k1_pay1
  simp only [shapeCast_self]
  rfl

/-- The seven windows' index maps agree at every grid point. -/
theorem idx_facts : ∀ t : Fin cfg1.N,
    win1_0.index t (0 : Fin 2) = win1_6.index t (0 : Fin 2) ∧ win1_0.index t (1 : Fin 2) = win1_6.index t (1 : Fin 2)
    ∧ win1_1.index t (0 : Fin 2) = win1_6.index t (0 : Fin 2) ∧ win1_1.index t (1 : Fin 2) = win1_6.index t (1 : Fin 2)
    ∧ win1_2.index t (0 : Fin 2) = win1_6.index t (0 : Fin 2) ∧ win1_2.index t (1 : Fin 2) = win1_6.index t (1 : Fin 2)
    ∧ win1_3.index t (0 : Fin 2) = win1_6.index t (0 : Fin 2) ∧ win1_3.index t (1 : Fin 2) = win1_6.index t (1 : Fin 2)
    ∧ win1_4.index t (0 : Fin 2) = win1_6.index t (0 : Fin 2) ∧ win1_4.index t (1 : Fin 2) = win1_6.index t (1 : Fin 2)
    ∧ win1_5.index t (0 : Fin 2) = win1_6.index t (0 : Fin 2) ∧ win1_5.index t (1 : Fin 2) = win1_6.index t (1 : Fin 2) :=
  (by decide +kernel : ∀ t : Fin grid1.N, _)

/-- Every row-block of the output array is some point's. -/
theorem idx_onto : ∀ q : Fin 20, ∃ t : Fin cfg1.N, win1_6.index t = ![q.val, 0] :=
  (by decide +kernel : ∀ q : Fin 20, ∃ t : Fin grid1.N, win1_6.index t = ![q.val, 0])

variable (V : (c : Dev nD) → (b : Ref sig .tc) → Buf (Elt F) ((c : Thread nD τ).loc b))

/-- Input window 0's block at point `t` reads its array where the output's block lies. -/
theorem iblk_0 (c : Dev nD) (t : Fin cfg1.N) (j : S3128x128.Idx) :
    iblk1 V c 0 t j = V c main_v22 (((cfg1.win 6).blk t).view.emb j) := by
  have e := idx_facts t
  show V c main_v22 (((cfg1.win 0).blk t).view.emb j) = V c main_v22 (((cfg1.win 6).blk t).view.emb j)
  refine congrArg (V c main_v22) (funext fun a => Fin.ext ?_)
  match a with
  | ⟨0, _⟩ => show win1_0.index t (0 : Fin 2) * 3128 + 1 * (j 0).val = win1_6.index t (0 : Fin 2) * 3128 + 1 * (j 0).val; omega
  | ⟨1, _⟩ => show win1_0.index t (1 : Fin 2) * 128 + 1 * (j 1).val = win1_6.index t (1 : Fin 2) * 128 + 1 * (j 1).val; omega

/-- Input window 1's block at point `t` reads its array where the output's block lies. -/
theorem iblk_1 (c : Dev nD) (t : Fin cfg1.N) (j : S3128x128.Idx) :
    iblk1 V c 1 t j = V c main_v24 (((cfg1.win 6).blk t).view.emb j) := by
  have e := idx_facts t
  show V c main_v24 (((cfg1.win 1).blk t).view.emb j) = V c main_v24 (((cfg1.win 6).blk t).view.emb j)
  refine congrArg (V c main_v24) (funext fun a => Fin.ext ?_)
  match a with
  | ⟨0, _⟩ => show win1_1.index t (0 : Fin 2) * 3128 + 1 * (j 0).val = win1_6.index t (0 : Fin 2) * 3128 + 1 * (j 0).val; omega
  | ⟨1, _⟩ => show win1_1.index t (1 : Fin 2) * 128 + 1 * (j 1).val = win1_6.index t (1 : Fin 2) * 128 + 1 * (j 1).val; omega

/-- Input window 2's block at point `t` reads its array where the output's block lies. -/
theorem iblk_2 (c : Dev nD) (t : Fin cfg1.N) (j : S3128x128.Idx) :
    iblk1 V c 2 t j = V c main_v26 (((cfg1.win 6).blk t).view.emb j) := by
  have e := idx_facts t
  show V c main_v26 (((cfg1.win 2).blk t).view.emb j) = V c main_v26 (((cfg1.win 6).blk t).view.emb j)
  refine congrArg (V c main_v26) (funext fun a => Fin.ext ?_)
  match a with
  | ⟨0, _⟩ => show win1_2.index t (0 : Fin 2) * 3128 + 1 * (j 0).val = win1_6.index t (0 : Fin 2) * 3128 + 1 * (j 0).val; omega
  | ⟨1, _⟩ => show win1_2.index t (1 : Fin 2) * 128 + 1 * (j 1).val = win1_6.index t (1 : Fin 2) * 128 + 1 * (j 1).val; omega

/-- Input window 3's block at point `t` reads its array where the output's block lies. -/
theorem iblk_3 (c : Dev nD) (t : Fin cfg1.N) (j : S3128x128.Idx) :
    iblk1 V c 3 t j = V c main_v28 (((cfg1.win 6).blk t).view.emb j) := by
  have e := idx_facts t
  show V c main_v28 (((cfg1.win 3).blk t).view.emb j) = V c main_v28 (((cfg1.win 6).blk t).view.emb j)
  refine congrArg (V c main_v28) (funext fun a => Fin.ext ?_)
  match a with
  | ⟨0, _⟩ => show win1_3.index t (0 : Fin 2) * 3128 + 1 * (j 0).val = win1_6.index t (0 : Fin 2) * 3128 + 1 * (j 0).val; omega
  | ⟨1, _⟩ => show win1_3.index t (1 : Fin 2) * 128 + 1 * (j 1).val = win1_6.index t (1 : Fin 2) * 128 + 1 * (j 1).val; omega

/-- Input window 4's block at point `t` reads its array where the output's block lies. -/
theorem iblk_4 (c : Dev nD) (t : Fin cfg1.N) (j : S3128x128.Idx) :
    iblk1 V c 4 t j = V c main_v30 (((cfg1.win 6).blk t).view.emb j) := by
  have e := idx_facts t
  show V c main_v30 (((cfg1.win 4).blk t).view.emb j) = V c main_v30 (((cfg1.win 6).blk t).view.emb j)
  refine congrArg (V c main_v30) (funext fun a => Fin.ext ?_)
  match a with
  | ⟨0, _⟩ => show win1_4.index t (0 : Fin 2) * 3128 + 1 * (j 0).val = win1_6.index t (0 : Fin 2) * 3128 + 1 * (j 0).val; omega
  | ⟨1, _⟩ => show win1_4.index t (1 : Fin 2) * 128 + 1 * (j 1).val = win1_6.index t (1 : Fin 2) * 128 + 1 * (j 1).val; omega

/-- Input window 5's block at point `t` reads its array where the output's block lies. -/
theorem iblk_5 (c : Dev nD) (t : Fin cfg1.N) (j : S3128x128.Idx) :
    iblk1 V c 5 t j = V c main_v32 (((cfg1.win 6).blk t).view.emb j) := by
  have e := idx_facts t
  show V c main_v32 (((cfg1.win 5).blk t).view.emb j) = V c main_v32 (((cfg1.win 6).blk t).view.emb j)
  refine congrArg (V c main_v32) (funext fun a => Fin.ext ?_)
  match a with
  | ⟨0, _⟩ => show win1_5.index t (0 : Fin 2) * 3128 + 1 * (j 0).val = win1_6.index t (0 : Fin 2) * 3128 + 1 * (j 0).val; omega
  | ⟨1, _⟩ => show win1_5.index t (1 : Fin 2) * 128 + 1 * (j 1).val = win1_6.index t (1 : Fin 2) * 128 + 1 * (j 1).val; omega

/-- What point `t` writes back is block `t` of the operation applied to the whole input arrays. -/
theorem flushed_eq (c : Dev nD) (t : Fin cfg1.N) :
    (dat1 V c).flushed 6 t = ((cfg1.win 6).blk t).view.read (Elt F)
      (rhs S62560x128 (V c main_v22) (V c main_v24) (V c main_v26) (V c main_v28) (V c main_v30) (V c main_v32)) := by
  show (cfg1.win 6).cut (grid1.coords t) ((dat1 V c).after 6 t) = _
  rw [after1_6]
  unfold out1_6
  rw [View.canon_unit_zero hz]
  simp only [View.ld_unit_zero (S := S3128x128) hz]
  rw [pay_eq]
  funext j
  show rhsS (iblk1 V c 0 t j) (iblk1 V c 1 t j) (iblk1 V c 2 t j) (iblk1 V c 3 t j) (iblk1 V c 4 t j) (iblk1 V c 5 t j)
    = rhsS (V c main_v22 (((cfg1.win 6).blk t).view.emb j)) (V c main_v24 (((cfg1.win 6).blk t).view.emb j))
        (V c main_v26 (((cfg1.win 6).blk t).view.emb j)) (V c main_v28 (((cfg1.win 6).blk t).view.emb j))
        (V c main_v30 (((cfg1.win 6).blk t).view.emb j)) (V c main_v32 (((cfg1.win 6).blk t).view.emb j))
  rw [iblk_0, iblk_1, iblk_2, iblk_3, iblk_4, iblk_5]

/-- An index of the output array is in point `t`'s block iff each coordinate is in the block's range. -/
theorem mem_blk (t : Fin cfg1.N) (i : S62560x128.Idx) :
    i ∈ ((cfg1.win 6).blk t).view.set ↔ ∀ a : Fin 2, win1_6.index t a * S3128x128.size a ≤ (i a).val ∧ (i a).val < win1_6.index t a * S3128x128.size a + S3128x128.size a := by
  show i ∈ ((View.whole main_v33).slice (win1_6.rect t)).set ↔ _
  rw [View.set_slice_whole, Rect.mem_set_unit]
  exact Iff.rfl

/-- The twenty blocks tile the output array: row `r` is in block `r / 3128`. -/
theorem cover (i : S62560x128.Idx) :
    ∃ t : Fin cfg1.N, (cfg1.win 6).flush t = true ∧ i ∈ ((cfg1.win 6).blk t).view.set := by
  have hi0 : (i 0).val < 62560 := (i 0).isLt
  have hi1 : (i 1).val < 128 := (i 1).isLt
  obtain ⟨t, ht⟩ := idx_onto ⟨(i 0).val / 3128, by omega⟩
  have q0 : win1_6.index t (0 : Fin 2) = (i 0).val / 3128 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 3128 ≤ (i 0).val ∧ (i 0).val < win1_6.index t (0 : Fin 2) * 3128 + 3128; omega
  | ⟨1, _⟩ => show win1_6.index t (1 : Fin 2) * 128 ≤ (i 1).val ∧ (i 1).val < win1_6.index t (1 : Fin 2) * 128 + 128; omega

/-- The output array after the launch: the operation of the six input arrays as the launch found them, index by index. -/
theorem final (c : Dev nD) : (dat1 V c).arrAt 6 cfg1.N
    = rhs S62560x128 (V c main_v22) (V c main_v24) (V c main_v26) (V c main_v28) (V c main_v30) (V c main_v32) :=
  (dat1 V c).arrAt_eq_of_cover 6 _ (fun t _ => flushed_eq V c t) cover

end Cert.KernelIdeal.Region1

end
-- ==== Proof.Region2.lean ====
/-
  The third launch (ten row-blocks of 3128 rows over a 31280 x 128 array). Its body stores, entry by entry,
  `s / max(n, 1) + f - w` of its four input blocks: the sum over a node's links divided by the number of links
  touching the node (at least one), plus the net flux, minus the meltwater input. Every window moves with the grid
  point, so point `t` writes back block `t` of that operation applied to the whole input arrays, the ten blocks tile
  the output array, and the output array ends as that function of the four input arrays, index by index.
-/
import proofs.«180901_j15341623181950_1_alg».proof.Proof.Gen.KernelIdeal.Frame
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.Pipeline (Dat)

variable {F : FTy → Type} [FloatOps F]

/-- One entry of the node update: link sum over link count (at least one), plus net flux, minus meltwater. -/
def cmbS (ls cnt nf mw : F .f32) : F .f32 :=
  FloatOps.subf (FloatOps.addf (FloatOps.divf ls (FloatOps.maximumf cnt (Scalar.ofBits .f32 0x3F800000#32))) nf) mw

/-- The same, entry by entry, over arrays of any one shape. -/
def cmb (s : Shape) (ls cnt nf mw : s.Idx → Elt F .f32) : s.Idx → Elt F .f32 :=
  fun i => cmbS (ls i) (cnt i) (nf i) (mw i)

theorem hz : (![0, 0] : Fin 2 → Nat) = fun _ => 0 := funext fun a => by fin_cases a <;> rfl

/-- The body's stored value is that operation of its four loaded blocks (the body loads the count first). -/
theorem pay_eq (xc xl xn xm : Vec F S3128x128 .f32) :
    k2_pay1 xc xl xn xm = cmb S3128x128 xl xc xn xm := by
  unfold k2_pay1
  simp only [shapeCast_self]
  rfl

/-- The five windows' index maps agree at every grid point. -/
theorem idx_facts : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = win2_4.index t (0 : Fin 2) ∧ win2_2.index t (1 : Fin 2) = win2_4.index t (1 : Fin 2)
    ∧ win2_3.index t (0 : Fin 2) = win2_4.index t (0 : Fin 2) ∧ win2_3.index t (1 : Fin 2) = win2_4.index t (1 : Fin 2) :=
  (by decide +kernel : ∀ t : Fin grid2.N, _)

/-- Every row-block of the output array is some point's. -/
theorem idx_onto : ∀ q : Fin 10, ∃ t : Fin cfg2.N, win2_4.index t = ![q.val, 0] :=
  (by decide +kernel : ∀ q : Fin 10, ∃ t : Fin grid2.N, win2_4.index t = ![q.val, 0])

variable (V : (c : Dev nD) → (b : Ref sig .tc) → Buf (Elt F) ((c : Thread nD τ).loc b))

/-- Input window 0's block at point `t` reads its array where the output's block lies. -/
theorem iblk_0 (c : Dev nD) (t : Fin cfg2.N) (j : S3128x128.Idx) :
    iblk2 V c 0 t j = V c main_v59 (((cfg2.win 4).blk t).view.emb j) := by
  have e := idx_facts t
  show V c main_v59 (((cfg2.win 0).blk t).view.emb j) = V c main_v59 (((cfg2.win 4).blk t).view.emb j)
  refine congrArg (V c main_v59) (funext fun a => Fin.ext ?_)
  match a with
  | ⟨0, _⟩ => show win2_0.index t (0 : Fin 2) * 3128 + 1 * (j 0).val = win2_4.index t (0 : Fin 2) * 3128 + 1 * (j 0).val; omega
  | ⟨1, _⟩ => show win2_0.index t (1 : Fin 2) * 128 + 1 * (j 1).val = win2_4.index t (1 : Fin 2) * 128 + 1 * (j 1).val; omega

/-- Input window 1's block at point `t` reads its array where the output's block lies. -/
theorem iblk_1 (c : Dev nD) (t : Fin cfg2.N) (j : S3128x128.Idx) :
    iblk2 V c 1 t j = V c main_v61 (((cfg2.win 4).blk t).view.emb j) := by
  have e := idx_facts t
  show V c main_v61 (((cfg2.win 1).blk t).view.emb j) = V c main_v61 (((cfg2.win 4).blk t).view.emb j)
  refine congrArg (V c main_v61) (funext fun a => Fin.ext ?_)
  match a with
  | ⟨0, _⟩ => show win2_1.index t (0 : Fin 2) * 3128 + 1 * (j 0).val = win2_4.index t (0 : Fin 2) * 3128 + 1 * (j 0).val; omega
  | ⟨1, _⟩ => show win2_1.index t (1 : Fin 2) * 128 + 1 * (j 1).val = win2_4.index t (1 : Fin 2) * 128 + 1 * (j 1).val; omega

/-- Input window 2's block at point `t` reads its array where the output's block lies. -/
theorem iblk_2 (c : Dev nD) (t : Fin cfg2.N) (j : S3128x128.Idx) :
    iblk2 V c 2 t j = V c main_v63 (((cfg2.win 4).blk t).view.emb j) := by
  have e := idx_facts t
  show V c main_v63 (((cfg2.win 2).blk t).view.emb j) = V c main_v63 (((cfg2.win 4).blk t).view.emb j)
  refine congrArg (V c main_v63) (funext fun a => Fin.ext ?_)
  match a with
  | ⟨0, _⟩ => show win2_2.index t (0 : Fin 2) * 3128 + 1 * (j 0).val = win2_4.index t (0 : Fin 2) * 3128 + 1 * (j 0).val; omega
  | ⟨1, _⟩ => show win2_2.index t (1 : Fin 2) * 128 + 1 * (j 1).val = win2_4.index t (1 : Fin 2) * 128 + 1 * (j 1).val; omega

/-- Input window 3's block at point `t` reads its array where the output's block lies. -/
theorem iblk_3 (c : Dev nD) (t : Fin cfg2.N) (j : S3128x128.Idx) :
    iblk2 V c 3 t j = V c main_v65 (((cfg2.win 4).blk t).view.emb j) := by
  have e := idx_facts t
  show V c main_v65 (((cfg2.win 3).blk t).view.emb j) = V c main_v65 (((cfg2.win 4).blk t).view.emb j)
  refine congrArg (V c main_v65) (funext fun a => Fin.ext ?_)
  match a with
  | ⟨0, _⟩ => show win2_3.index t (0 : Fin 2) * 3128 + 1 * (j 0).val = win2_4.index t (0 : Fin 2) * 3128 + 1 * (j 0).val; omega
  | ⟨1, _⟩ => show win2_3.index t (1 : Fin 2) * 128 + 1 * (j 1).val = win2_4.index t (1 : Fin 2) * 128 + 1 * (j 1).val; omega

/-- What point `t` writes back is block `t` of the operation applied to the whole input arrays. -/
theorem flushed_eq (c : Dev nD) (t : Fin cfg2.N) :
    (dat2 V c).flushed 4 t = ((cfg2.win 4).blk t).view.read (Elt F)
      (cmb S31280x128 (V c main_v59) (V c main_v61) (V c main_v63) (V c main_v65)) := by
  show (cfg2.win 4).cut (grid2.coords t) ((dat2 V c).after 4 t) = _
  rw [after2_4]
  unfold out2_4
  rw [View.canon_unit_zero hz]
  simp only [View.ld_unit_zero (S := S3128x128) hz]
  rw [pay_eq]
  funext j
  show cmbS (iblk2 V c 0 t j) (iblk2 V c 1 t j) (iblk2 V c 2 t j) (iblk2 V c 3 t j)
    = cmbS (V c main_v59 (((cfg2.win 4).blk t).view.emb j)) (V c main_v61 (((cfg2.win 4).blk t).view.emb j))
        (V c main_v63 (((cfg2.win 4).blk t).view.emb j)) (V c main_v65 (((cfg2.win 4).blk t).view.emb j))
  rw [iblk_0, iblk_1, iblk_2, iblk_3]

/-- An index of the output array is in point `t`'s block iff each coordinate is in the block's range. -/
theorem mem_blk (t : Fin cfg2.N) (i : S31280x128.Idx) :
    i ∈ ((cfg2.win 4).blk t).view.set ↔ ∀ a : Fin 2, win2_4.index t a * S3128x128.size a ≤ (i a).val ∧ (i a).val < win2_4.index t a * S3128x128.size a + S3128x128.size a := by
  show i ∈ ((View.whole main_v66).slice (win2_4.rect t)).set ↔ _
  rw [View.set_slice_whole, Rect.mem_set_unit]
  exact Iff.rfl

/-- The ten blocks tile the output array: row `r` is in block `r / 3128`. -/
theorem cover (i : S31280x128.Idx) :
    ∃ t : Fin cfg2.N, (cfg2.win 4).flush t = true ∧ i ∈ ((cfg2.win 4).blk t).view.set := by
  have hi0 : (i 0).val < 31280 := (i 0).isLt
  have hi1 : (i 1).val < 128 := (i 1).isLt
  obtain ⟨t, ht⟩ := idx_onto ⟨(i 0).val / 3128, by omega⟩
  have q0 : win2_4.index t (0 : Fin 2) = (i 0).val / 3128 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 3128 ≤ (i 0).val ∧ (i 0).val < win2_4.index t (0 : Fin 2) * 3128 + 3128; omega
  | ⟨1, _⟩ => show win2_4.index t (1 : Fin 2) * 128 ≤ (i 1).val ∧ (i 1).val < win2_4.index t (1 : Fin 2) * 128 + 128; omega

/-- The output array after the launch: the operation of the four input arrays as the launch found them, index by index. -/
theorem final (c : Dev nD) : (dat2 V c).arrAt 4 cfg2.N
    = cmb S31280x128 (V c main_v59) (V c main_v61) (V c main_v63) (V c main_v65) :=
  (dat2 V c).arrAt_eq_of_cover 4 _ (fun t _ => flushed_eq V c t) cover

end Cert.KernelIdeal.Region2

end
-- ==== Proof.Walk.lean ====
/-
  The values the kernel's program holds between its launches. Each node array enters a launch as its 31250 rows of
  128 lanes padded below to 31280 rows (ten blocks of 3128), each link array as 62500 rows padded to 62560 (twenty
  blocks), and a launch's result is cut back to its first rows and flattened. Between the launches the host gathers the
  overburden at each link's head and tail node (a negative node number counted from the end), and scatter-adds link
  values to nodes. Walking @main's segments from the launch memory: the first launch leaves the overburden layout, the
  second the links' right-hand side layout, the third the node update layout, and the result is the last one read back.
-/
import proofs.«180901_j15341623181950_1_alg».proof.Proof.Region0
import proofs.«180901_j15341623181950_1_alg».proof.Proof.Region1
import proofs.«180901_j15341623181950_1_alg».proof.Proof.Region2
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo

variable {F : FTy → Type} [FloatOps F]

/-! ## The layouts and the host operations between the launches -/

/-- A node array as 31250 rows of 128 lanes, padded below to 31280 rows. -/
def padN (a : S4000000.Idx → Elt F .f32) : S31280x128.Idx → Elt F .f32 :=
  pad S31280x128 ![0, 0] ![30, 0] ![0, 0] (shapeCast S31250x128 a shapeCasts_S4000000_S31250x128)
    (sitofp (F := F) .f32 (constantI S_ 32 0#32)) pads_S31250x128_S31280x128_0300_000 h_S_

/-- The padded node layout cut to its first 31250 rows and flattened. -/
def unpadN (X : S31280x128.Idx → Elt F .f32) : S4000000.Idx → Elt F .f32 :=
  shapeCast S4000000 (extractStridedSlice S31250x128 ![0, 0] X slices_S31280x128_S31250x128_0_0) shapeCasts_S31250x128_S4000000

/-- A link array as 62500 rows of 128 lanes, padded below to 62560 rows. -/
def padL (a : S8000000.Idx → Elt F .f32) : S62560x128.Idx → Elt F .f32 :=
  pad S62560x128 ![0, 0] ![60, 0] ![0, 0] (shapeCast S62500x128 a shapeCasts_S8000000_S62500x128)
    (sitofp (F := F) .f32 (constantI S_ 32 0#32)) pads_S62500x128_S62560x128_0600_000 h_S_

/-- The padded link layout cut to its first 62500 rows and flattened. -/
def unpadL (X : S62560x128.Idx → Elt F .f32) : S8000000.Idx → Elt F .f32 :=
  shapeCast S8000000 (extractStridedSlice S62500x128 ![0, 0] X slices_S62560x128_S62500x128_0_0) shapeCasts_S62500x128_S8000000

/-- A node array read at each link's node number, a negative number counted from the end. -/
def gath (x : S4000000.Idx → Elt F .f32) (ix : S8000000.Idx → Elt F .i32) : S8000000.Idx → Elt F .f32 :=
  Host.gather gather_S4000000_S8000000x1_S8000000_n_0_n_n_0_1_1 x
    (broadcastInDim S8000000x1 ![0] bcast_S8000000_S8000000x1_0
      (select (cmpi .slt ix (broadcastInDim S8000000 ![] bcast_S_S8000000 (constantI S_ 32 0#32)))
        (addi ix (broadcastInDim S8000000 ![] bcast_S_S8000000 (constantI S_ 32 4000000#32))) ix))

/-- Link values summed into the nodes the node numbers name, from zero. -/
def seg (ix : S8000000.Idx → Elt F .i32) (u : S8000000.Idx → Elt F .f32) : S4000000.Idx → Elt F .f32 :=
  Host.scatterAdd scatter_S4000000_S8000000x1_S8000000_n_0_0_1
    (broadcastInDim S4000000 ![] bcast_S_S4000000 (constant (F := F) S_ .f32 0x00000000#32))
    (broadcastInDim S8000000x1 ![0] bcast_S8000000_S8000000x1_0 ix) u

/-- The link array of ones. -/
def ones : S8000000.Idx → Elt F .f32 :=
  broadcastInDim S8000000 ![] bcast_S_S8000000 (constant (F := F) S_ .f32 0x3F800000#32)

variable (m : (ℓ : Loc nD τ sig) → Buf (Elt F) ℓ) (ρ : Dev nD → PrngReg)

/-! ## Up to the first launch -/

theorem V4_v1 (c : Dev nD) : V4 m ρ c main_v1 = padN (m ((c : Thread nD τ).loc main_arg0)) := by
  show W4 m ρ c (Proc.devRef .tc main_v1) = _
  dsimp only [W4, W3, W2, W1]
  simp only [hostOps0, hostOps0_1, hostOps0_2, hostOps0_3]
  after_results
  rfl

theorem V4_v3 (c : Dev nD) : V4 m ρ c main_v3 = padN (m ((c : Thread nD τ).loc main_arg1)) := by
  show W4 m ρ c (Proc.devRef .tc main_v3) = _
  dsimp only [W4, W3, W2, W1]
  simp only [hostOps0, hostOps0_1, hostOps0_2, hostOps0_3]
  after_results
  rfl

/-- After the first launch its output array holds the overburden layout. -/
theorem W5_v4 (c : Dev nD) : W5 m ρ c (Proc.devRef .tc main_v4)
    = Region0.ob S31280x128 (padN (m ((c : Thread nD τ).loc main_arg0))) (padN (m ((c : Thread nD τ).loc main_arg1))) := by
  refine (W5_arr m ρ c 2).trans ((Region0.final (V4 m ρ) c).trans ?_)
  rw [V4_v1, V4_v3]

/-- Up to the first launch's exit: the host stretches before it, opened (what is left reads the launch memory). -/
local macro "walk0" : tactic =>
  `(tactic| (dsimp only [W4, W3, W2, W1]
             simp only [hostOps0, hostOps0_1, hostOps0_2, hostOps0_3]
             after_results))

/-- An argument the first launch and the stretches before it do not write is as launched. -/
theorem W5_arg2 (c : Dev nD) : W5 m ρ c (Proc.devRef .tc main_arg2) = m ((c : Thread nD τ).loc main_arg2) := by
  refine (W5_of_ne m ρ c main_arg2 (by decide)).trans ?_; walk0
theorem W5_arg3 (c : Dev nD) : W5 m ρ c (Proc.devRef .tc main_arg3) = m ((c : Thread nD τ).loc main_arg3) := by
  refine (W5_of_ne m ρ c main_arg3 (by decide)).trans ?_; walk0
theorem W5_arg4 (c : Dev nD) : W5 m ρ c (Proc.devRef .tc main_arg4) = m ((c : Thread nD τ).loc main_arg4) := by
  refine (W5_of_ne m ρ c main_arg4 (by decide)).trans ?_; walk0
theorem W5_arg5 (c : Dev nD) : W5 m ρ c (Proc.devRef .tc main_arg5) = m ((c : Thread nD τ).loc main_arg5) := by
  refine (W5_of_ne m ρ c main_arg5 (by decide)).trans ?_; walk0
theorem W5_arg6 (c : Dev nD) : W5 m ρ c (Proc.devRef .tc main_arg6) = m ((c : Thread nD τ).loc main_arg6) := by
  refine (W5_of_ne m ρ c main_arg6 (by decide)).trans ?_; walk0
theorem W5_arg7 (c : Dev nD) : W5 m ρ c (Proc.devRef .tc main_arg7) = m ((c : Thread nD τ).loc main_arg7) := by
  refine (W5_of_ne m ρ c main_arg7 (by decide)).trans ?_; walk0
theorem W5_arg8 (c : Dev nD) : W5 m ρ c (Proc.devRef .tc main_arg8) = m ((c : Thread nD τ).loc main_arg8) := by
  refine (W5_of_ne m ρ c main_arg8 (by decide)).trans ?_; walk0

/-! ## Between the first and the second launch -/

/-- The overburden at the nodes, as the first launch leaves it read back flat. -/
def obK (a0 a1 : S4000000.Idx → Elt F .f32) : S4000000.Idx → Elt F .f32 :=
  unpadN (Region0.ob S31280x128 (padN a0) (padN a1))

/-- The host stretches between the first and the second launch, opened (what is left reads the first launch's exit). -/
local macro "walk1" : tactic =>
  `(tactic| (dsimp only [W17]; simp only [hostOps1_11]; after_results))

set_option maxHeartbeats 4000000 in
theorem V17_v22 (c : Dev nD) : V17 m ρ c main_v22 = padL (gath (obK (m ((c : Thread nD τ).loc main_arg0)) (m ((c : Thread nD τ).loc main_arg1))) (m ((c : Thread nD τ).loc main_arg7))) := by
  show W17 m ρ c (Proc.devRef .tc main_v22) = _
  walk1
  rw [W5_v4, W5_arg7]
  rfl
set_option maxHeartbeats 4000000 in
theorem V17_v24 (c : Dev nD) : V17 m ρ c main_v24 = padL (gath (obK (m ((c : Thread nD τ).loc main_arg0)) (m ((c : Thread nD τ).loc main_arg1))) (m ((c : Thread nD τ).loc main_arg8))) := by
  show W17 m ρ c (Proc.devRef .tc main_v24) = _
  walk1
  rw [W5_v4, W5_arg8]
  rfl
theorem V17_v26 (c : Dev nD) : V17 m ρ c main_v26 = padL (m ((c : Thread nD τ).loc main_arg6)) := by
  show W17 m ρ c (Proc.devRef .tc main_v26) = _
  walk1
  rw [W5_arg6]
  rfl
theorem V17_v28 (c : Dev nD) : V17 m ρ c main_v28 = padL (m ((c : Thread nD τ).loc main_arg5)) := by
  show W17 m ρ c (Proc.devRef .tc main_v28) = _
  walk1
  rw [W5_arg5]
  rfl
theorem V17_v30 (c : Dev nD) : V17 m ρ c main_v30 = padL (m ((c : Thread nD τ).loc main_arg3)) := by
  show W17 m ρ c (Proc.devRef .tc main_v30) = _
  walk1
  rw [W5_arg3]
  rfl
theorem V17_v32 (c : Dev nD) : V17 m ρ c main_v32 = padL (m ((c : Thread nD τ).loc main_arg4)) := by
  show W17 m ρ c (Proc.devRef .tc main_v32) = _
  walk1
  rw [W5_arg4]
  rfl

/-- The links' right-hand side, as the second launch leaves it read back flat. -/
def rhsK (a0 a1 : S4000000.Idx → Elt F .f32) (a3 a4 a5 a6 : S8000000.Idx → Elt F .f32) (a7 a8 : S8000000.Idx → Elt F .i32) :
    S8000000.Idx → Elt F .f32 :=
  unpadL (Region1.rhs S62560x128 (padL (gath (obK a0 a1) a7)) (padL (gath (obK a0 a1) a8)) (padL a6) (padL a5) (padL a3) (padL a4))

/-- After the second launch its output array holds the right-hand side layout. -/
theorem W18_v33 (c : Dev nD) : W18 m ρ c (Proc.devRef .tc main_v33)
    = Region1.rhs S62560x128 (padL (gath (obK (m ((c : Thread nD τ).loc main_arg0)) (m ((c : Thread nD τ).loc main_arg1))) (m ((c : Thread nD τ).loc main_arg7)))) (padL (gath (obK (m ((c : Thread nD τ).loc main_arg0)) (m ((c : Thread nD τ).loc main_arg1))) (m ((c : Thread nD τ).loc main_arg8))))
        (padL (m ((c : Thread nD τ).loc main_arg6))) (padL (m ((c : Thread nD τ).loc main_arg5))) (padL (m ((c : Thread nD τ).loc main_arg3))) (padL (m ((c : Thread nD τ).loc main_arg4))) := by
  refine (W18_arr m ρ c 6).trans ((Region1.final (V17 m ρ) c).trans ?_)
  rw [V17_v22, V17_v24, V17_v26, V17_v28, V17_v30, V17_v32]

theorem W18_arg2 (c : Dev nD) : W18 m ρ c (Proc.devRef .tc main_arg2) = m ((c : Thread nD τ).loc main_arg2) := by
  refine (W18_of_ne m ρ c main_arg2 (by decide)).trans ?_; walk1; exact W5_arg2 m ρ c
theorem W18_arg6 (c : Dev nD) : W18 m ρ c (Proc.devRef .tc main_arg6) = m ((c : Thread nD τ).loc main_arg6) := by
  refine (W18_of_ne m ρ c main_arg6 (by decide)).trans ?_; walk1; exact W5_arg6 m ρ c
theorem W18_arg7 (c : Dev nD) : W18 m ρ c (Proc.devRef .tc main_arg7) = m ((c : Thread nD τ).loc main_arg7) := by
  refine (W18_of_ne m ρ c main_arg7 (by decide)).trans ?_; walk1; exact W5_arg7 m ρ c
theorem W18_arg8 (c : Dev nD) : W18 m ρ c (Proc.devRef .tc main_arg8) = m ((c : Thread nD τ).loc main_arg8) := by
  refine (W18_of_ne m ρ c main_arg8 (by decide)).trans ?_; walk1; exact W5_arg8 m ρ c

/-! ## Between the second and the third launch -/

/-- The host stretches between the second and the third launch, opened (what is left reads the second launch's exit). -/
local macro "walk2" : tactic =>
  `(tactic| (dsimp only [W26]; simp only [hostOps2_7]; after_results))

set_option maxHeartbeats 8000000 in
theorem V26_v59 (c : Dev nD) : V26 m ρ c main_v59 = padN (addf (seg (m ((c : Thread nD τ).loc main_arg7)) (rhsK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (seg (m ((c : Thread nD τ).loc main_arg8)) (rhsK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))) := by
  show W26 m ρ c (Proc.devRef .tc main_v59) = _
  walk2
  rw [W18_v33, W18_arg7, W18_arg8]
  rfl
set_option maxHeartbeats 8000000 in
theorem V26_v61 (c : Dev nD) : V26 m ρ c main_v61 = padN (addf (seg (m ((c : Thread nD τ).loc main_arg7)) ones) (seg (m ((c : Thread nD τ).loc main_arg8)) ones)) := by
  show W26 m ρ c (Proc.devRef .tc main_v61) = _
  walk2
  rw [W18_arg7, W18_arg8]
  rfl
set_option maxHeartbeats 8000000 in
theorem V26_v63 (c : Dev nD) : V26 m ρ c main_v63 = padN (subf (seg (m ((c : Thread nD τ).loc main_arg7)) (m ((c : Thread nD τ).loc main_arg6))) (seg (m ((c : Thread nD τ).loc main_arg8)) (m ((c : Thread nD τ).loc main_arg6)))) := by
  show W26 m ρ c (Proc.devRef .tc main_v63) = _
  walk2
  rw [W18_arg7, W18_arg8, W18_arg6]
  rfl
set_option maxHeartbeats 8000000 in
theorem V26_v65 (c : Dev nD) : V26 m ρ c main_v65 = padN (m ((c : Thread nD τ).loc main_arg2)) := by
  show W26 m ρ c (Proc.devRef .tc main_v65) = _
  walk2
  rw [W18_arg2]
  rfl

/-- After the third launch its output array holds the node update layout. -/
theorem W27_v66 (c : Dev nD) : W27 m ρ c (Proc.devRef .tc main_v66)
    = Region2.cmb S31280x128 (padN (addf (seg (m ((c : Thread nD τ).loc main_arg7)) (rhsK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (seg (m ((c : Thread nD τ).loc main_arg8)) (rhsK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))))
        (padN (addf (seg (m ((c : Thread nD τ).loc main_arg7)) ones) (seg (m ((c : Thread nD τ).loc main_arg8)) ones)))
        (padN (subf (seg (m ((c : Thread nD τ).loc main_arg7)) (m ((c : Thread nD τ).loc main_arg6))) (seg (m ((c : Thread nD τ).loc main_arg8)) (m ((c : Thread nD τ).loc main_arg6)))))
        (padN (m ((c : Thread nD τ).loc main_arg2))) := by
  refine (W27_arr m ρ c 4).trans ((Region2.final (V26 m ρ) c).trans ?_)
  rw [V26_v59, V26_v61, V26_v63, V26_v65]

/-! ## The result -/

/-- The kernel program's result of its nine arguments, through the padded layouts. -/
def kernelK (a0 a1 a2 : S4000000.Idx → Elt F .f32) (a3 a4 a5 a6 : S8000000.Idx → Elt F .f32)
    (a7 a8 : S8000000.Idx → Elt F .i32) : S4000000.Idx → Elt F .f32 :=
  unpadN (Region2.cmb S31280x128
    (padN (addf (seg a7 (rhsK a0 a1 a3 a4 a5 a6 a7 a8)) (seg a8 (rhsK a0 a1 a3 a4 a5 a6 a7 a8))))
    (padN (addf (seg a7 ones) (seg a8 ones)))
    (padN (subf (seg a7 a6) (seg a8 a6)))
    (padN a2))

/-- The result buffer at the last segment boundary is that function of the arguments' launch contents. -/
theorem value (c : Dev nD) : W28 m ρ c (Proc.devRef .tc main_v68)
    = kernelK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W28]
  simp only [hostOps3]
  after_results
  rw [W27_v66]
  rfl

end Cert.KernelIdeal.Walk

end
-- ==== Proof.Flat.lean ====
/-
  A flat array of `R` rows of 128 lanes against the same array laid out as `Rp ≥ R` rows of 128 lanes:
  position `i` of the flat array is row `i / 128`, lane `i % 128`. Reading the padded, row-blocked layout
  back (cut to the first `R` rows, then flattened) at `i` reads row `i / 128`, lane `i % 128`; and the
  flat array reshaped to rows and padded below holds, at that row and lane, entry `i` of the flat array.
  So any operation applied entry by entry to padded layouts, read back, is the operation applied entry by
  entry to the flat arrays, whatever the padding rows hold.
-/
import Idealize.ShloMosaic.Lib.KernelVsHost
import Idealize.ShloMosaic.Lib.Pipeline.Value
import Idealize.ShloMosaic.Lib.ValueIdx

namespace Cert.Flat

open Idealize.ShloMosaic Idealize.ShloMosaic.ValueIdx

variable {α : Type} {N R Rp : Nat}

/-- Flat position `i` as (row, lane) of the layout padded to `Rp` rows. -/
def rowLane (hN : N = R * 128) (hR : R ≤ Rp) (i : (⟨1, ![N]⟩ : Shape).Idx) : (⟨2, ![Rp, 128]⟩ : Shape).Idx :=
  ix2 ⟨(i 0).val / 128, by have h : (i 0).val < N := (i 0).isLt; omega⟩ ⟨(i 0).val % 128, Nat.mod_lt _ (by decide)⟩

/-- The padded layout cut to its first `R` rows and flattened, read at `i`: the layout at row `i / 128`, lane `i % 128`. -/
theorem unpad_apply (hN : N = R * 128) (hR : R ≤ Rp) (X : (⟨2, ![Rp, 128]⟩ : Shape).Idx → α)
    (hs : (⟨2, ![Rp, 128]⟩ : Shape).Slices ![0, 0] ⟨2, ![R, 128]⟩)
    (hc : (⟨2, ![R, 128]⟩ : Shape).ShapeCasts ⟨1, ![N]⟩) (i : (⟨1, ![N]⟩ : Shape).Idx) :
    shapeCast ⟨1, ![N]⟩ (extractStridedSlice ⟨2, ![R, 128]⟩ ![0, 0] X hs) hc i = X (rowLane hN hR i) := by
  have h : (i 0).val < N := (i 0).isLt
  rw [shapeCast_apply _ hc i (ix2 ⟨(i 0).val / 128, by omega⟩ ⟨(i 0).val % 128, Nat.mod_lt _ (by decide)⟩)
    (by rw [Shape.rowMajor_val_two, Shape.rowMajor_val_one]
        show (i 0).val / 128 * 128 + (i 0).val % 128 = (i 0).val
        omega)]
  refine extractStridedSlice_apply ![0, 0] X hs _ (rowLane hN hR i) fun a => ?_
  match a with
  | ⟨0, _⟩ => show (i 0).val / 128 = 0 + (i 0).val / 128; omega
  | ⟨1, _⟩ => show (i 0).val % 128 = 0 + (i 0).val % 128; omega

/-- The flat array reshaped to `R` rows and padded below to `Rp` rows, read at row `i / 128`, lane `i % 128`: entry `i`. -/
theorem pad_rowLane (hN : N = R * 128) (hR : R ≤ Rp) (a : (⟨1, ![N]⟩ : Shape).Idx → α) {u : Shape} (v : u.Idx → α)
    (hi : Fin 2 → Nat)
    (hc : (⟨1, ![N]⟩ : Shape).ShapeCasts ⟨2, ![R, 128]⟩)
    (hp : (⟨2, ![R, 128]⟩ : Shape).Pads ![0, 0] hi ![0, 0] ⟨2, ![Rp, 128]⟩) (hu : 0 < u.numel)
    (i : (⟨1, ![N]⟩ : Shape).Idx) :
    pad ⟨2, ![Rp, 128]⟩ ![0, 0] hi ![0, 0] (shapeCast ⟨2, ![R, 128]⟩ a hc) v hp hu (rowLane hN hR i) = a i := by
  have h : (i 0).val < N := (i 0).isLt
  rw [pad_apply_of_inside ![0, 0] hi ![0, 0] _ v hp hu (rowLane hN hR i)
    (ix2 ⟨(i 0).val / 128, by omega⟩ ⟨(i 0).val % 128, Nat.mod_lt _ (by decide)⟩)
    (fun b => by
      match b with
      | ⟨0, _⟩ => show (i 0).val / 128 = 0 + (i 0).val / 128 * (0 + 1); omega
      | ⟨1, _⟩ => show (i 0).val % 128 = 0 + (i 0).val % 128 * (0 + 1); omega)]
  exact shapeCast_apply a hc _ i
    (by rw [Shape.rowMajor_val_two, Shape.rowMajor_val_one]
        show (i 0).val = (i 0).val / 128 * 128 + (i 0).val % 128
        omega)

end Cert.Flat
-- ==== Proof.Layout.lean ====
/-
  Reading the padded layouts back. The kernel's launches work on node arrays laid out as 31280 rows of 128 lanes and
  on link arrays laid out as 62560 rows; the host cuts each result to its first 31250 (62500) rows and flattens it.
  At flat position `i` that reads row `i / 128`, lane `i % 128` of the layout, where a padded input holds entry `i` of
  its flat array. Each launch applies one operation entry by entry, so its result read back flat is the same operation
  applied entry by entry to the flat arrays: the padding rows never reach a kept entry.
-/
import proofs.«180901_j15341623181950_1_alg».proof.Proof.Walk
import proofs.«180901_j15341623181950_1_alg».proof.Proof.Flat

noncomputable section

namespace Cert.KernelIdeal.Layout

open Cert.KernelIdeal Cert.KernelIdeal.Gen Cert.KernelIdeal.Walk Idealize.ShloMosaic

variable {F : FTy → Type} [FloatOps F]

/-- Flat node position `i` as (row, lane) of the padded node layout. -/
abbrev rlN (i : S4000000.Idx) : S31280x128.Idx :=
  Cert.Flat.rowLane (N := 4000000) (R := 31250) (Rp := 31280) (by decide) (by decide) i

/-- Flat link position `i` as (row, lane) of the padded link layout. -/
abbrev rlL (i : S8000000.Idx) : S62560x128.Idx :=
  Cert.Flat.rowLane (N := 8000000) (R := 62500) (Rp := 62560) (by decide) (by decide) i

theorem unpadN_apply (X : S31280x128.Idx → Elt F .f32) (i : S4000000.Idx) : unpadN X i = X (rlN i) :=
  Cert.Flat.unpad_apply (N := 4000000) (R := 31250) (Rp := 31280) (by decide) (by decide) X _ _ i

theorem padN_apply (a : S4000000.Idx → Elt F .f32) (i : S4000000.Idx) : padN a (rlN i) = a i :=
  Cert.Flat.pad_rowLane (N := 4000000) (R := 31250) (Rp := 31280) (by decide) (by decide) a _ _ _ _ _ i

theorem unpadL_apply (X : S62560x128.Idx → Elt F .f32) (i : S8000000.Idx) : unpadL X i = X (rlL i) :=
  Cert.Flat.unpad_apply (N := 8000000) (R := 62500) (Rp := 62560) (by decide) (by decide) X _ _ i

theorem padL_apply (a : S8000000.Idx → Elt F .f32) (i : S8000000.Idx) : padL a (rlL i) = a i :=
  Cert.Flat.pad_rowLane (N := 8000000) (R := 62500) (Rp := 62560) (by decide) (by decide) a _ _ _ _ _ i

/-- The first launch's result read back flat is the overburden of the flat node arrays. -/
theorem unpadN_ob (a b : S4000000.Idx → Elt F .f32) :
    unpadN (Region0.ob S31280x128 (padN a) (padN b)) = Region0.ob S4000000 a b := by
  funext i
  rw [unpadN_apply]
  unfold Region0.ob
  rw [padN_apply, padN_apply]

/-- The second launch's result read back flat is the right-hand side of the flat link arrays. -/
theorem unpadL_rhs (x0 x1 x2 x3 x4 x5 : S8000000.Idx → Elt F .f32) :
    unpadL (Region1.rhs S62560x128 (padL x0) (padL x1) (padL x2) (padL x3) (padL x4) (padL x5))
      = Region1.rhs S8000000 x0 x1 x2 x3 x4 x5 := by
  funext i
  rw [unpadL_apply]
  unfold Region1.rhs
  rw [padL_apply, padL_apply, padL_apply, padL_apply, padL_apply, padL_apply]

/-- The third launch's result read back flat is the node update of the flat node arrays. -/
theorem unpadN_cmb (x0 x1 x2 x3 : S4000000.Idx → Elt F .f32) :
    unpadN (Region2.cmb S31280x128 (padN x0) (padN x1) (padN x2) (padN x3)) = Region2.cmb S4000000 x0 x1 x2 x3 := by
  funext i
  rw [unpadN_apply]
  unfold Region2.cmb
  rw [padN_apply, padN_apply, padN_apply, padN_apply]

end Cert.KernelIdeal.Layout

end
-- ==== Proof.RefSide.lean ====
/-
  The reference's result as one function of its nine argument arrays, staged as the reference computes it: the
  overburden at the nodes, gathered to each link's head and tail, the links' right-hand side (melt opening plus gap
  opening minus creep closure), its sums over the links at each node, the link count at each node, the net flux, and
  the node update `sum / max(count, 1) + net flux - meltwater`. The reference run's composed term is this function of
  the launch contents of the arguments.
-/
import proofs.«180901_j15341623181950_1_alg».proof.Proof.Gen.ReferenceIdeal.Run

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

/-- The overburden at the nodes: `k * h - p`. -/
def obR (a0 a1 : S4000000.Idx → Elt F .f32) : S4000000.Idx → Elt F .f32 :=
  subf (mulf (broadcastInDim S4000000 ![] bcast_S_S4000000 (constant (F := F) S_ .f32 0x460C8F14#32)) a0) a1

/-- A node array read at each link's node number, a negative number counted from the end. -/
def gathR (x : S4000000.Idx → Elt F .f32) (ix : S8000000.Idx → Elt F .i32) : S8000000.Idx → Elt F .f32 :=
  Host.gather gather_S4000000_S8000000x1_S8000000_n_0_n_n_0_1_1 x
    (broadcastInDim S8000000x1 ![0] bcast_S8000000_S8000000x1_0
      (select (cmpi .slt ix (broadcastInDim S8000000 ![] bcast_S_S8000000 (constantI S_ 32 0#32)))
        (addi ix (broadcastInDim S8000000 ![] bcast_S_S8000000 (constantI S_ 32 4000000#32))) ix))

/-- The effective pressure at the links. -/
def effR (gh gt : S8000000.Idx → Elt F .f32) : S8000000.Idx → Elt F .f32 :=
  mulf (broadcastInDim S8000000 ![] bcast_S_S8000000 (constant (F := F) S_ .f32 0x3F000000#32)) (addf gh gt)

/-- The links' right-hand side. -/
def rhsR (gh gt a3 a4 a5 a6 : S8000000.Idx → Elt F .f32) : S8000000.Idx → Elt F .f32 :=
  subf (addf (mulf (mulf (broadcastInDim S8000000 ![] bcast_S_S8000000 (constant (F := F) S_ .f32 0x315FB32A#32)) a6) a5) (mulf a3 (broadcastInDim S8000000 ![] bcast_S_S8000000 (constant (F := F) S_ .f32 0x3DCCCCCD#32))))
    (mulf (mulf (broadcastInDim S8000000 ![] bcast_S_S8000000 (constant (F := F) S_ .f32 0x17098C84#32)) (mulf (mulf (effR gh gt) (effR gh gt)) (effR gh gt))) a4)

/-- Link values summed into the nodes the node numbers name, from zero. -/
def segR (ix : S8000000.Idx → Elt F .i32) (u : S8000000.Idx → Elt F .f32) : S4000000.Idx → Elt F .f32 :=
  Host.scatterAdd scatter_S4000000_S8000000x1_S8000000_n_0_0_1 (broadcastInDim S4000000 ![] bcast_S_S4000000 (constant (F := F) S_ .f32 0x00000000#32))
    (broadcastInDim S8000000x1 ![0] bcast_S8000000_S8000000x1_0 ix) u

/-- The link array of ones. -/
def onesR : S8000000.Idx → Elt F .f32 := (broadcastInDim S8000000 ![] bcast_S_S8000000 (constant (F := F) S_ .f32 0x3F800000#32))

/-- The node update. -/
def outR (ls cnt nf mw : S4000000.Idx → Elt F .f32) : S4000000.Idx → Elt F .f32 :=
  subf (addf (Host.divf ls (maximumf cnt (broadcastInDim S4000000 ![] bcast_S_S4000000 (constant (F := F) S_ .f32 0x3F800000#32)))) nf) mw

/-- The reference's result of its nine arguments. -/
def refK (a0 a1 a2 : S4000000.Idx → Elt F .f32) (a3 a4 a5 a6 : S8000000.Idx → Elt F .f32)
    (a7 a8 : S8000000.Idx → Elt F .i32) : S4000000.Idx → Elt F .f32 :=
  outR
    (addf (segR a7 (rhsR (gathR (obR a0 a1) a7) (gathR (obR a0 a1) a8) a3 a4 a5 a6))
      (segR a8 (rhsR (gathR (obR a0 a1) a7) (gathR (obR a0 a1) a8) a3 a4 a5 a6)))
    (addf (segR a7 onesR) (segR a8 onesR))
    (subf (segR a7 a6) (segR a8 a6))
    a2

set_option maxHeartbeats 4000000 in
/-- The run's composed term is that function of the arguments' launch contents. -/
theorem res_eq (m : (ℓ : Loc nD τ sig) → Buf (Elt F) ℓ) (c : Dev nD) :
    res_main_v58 m c = refK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_main_v58 refK outR segR onesR rhsR effR gathR obR
  rfl

end Cert.ReferenceIdeal.RefValue

end
-- ==== Proof.Bridge.lean ====
/-
  The kernel's program and the reference compute one function of the nine arguments. Read back through the padded
  layouts, each launch is its operation applied entry by entry to the flat arrays, so the kernel's result is: the node
  update of (the links' right-hand side summed at each link's head and tail node, the link count, the net flux, the
  meltwater), the right-hand side being that of the overburden gathered at the links' heads and tails. Stage by stage
  these are the reference's own operations: the same products, sums and differences entry by entry, the same gathers and
  scatter-adds; the kernel's quotient inside a launch and the host's quotient are one operation on the extended reals.
-/
import proofs.«180901_j15341623181950_1_alg».proof.Proof.Layout
import proofs.«180901_j15341623181950_1_alg».proof.Proof.RefSide

noncomputable section

namespace Cert.Bridge

open Idealize.ShloMosaic
open Cert.KernelIdeal Cert.KernelIdeal.Walk

/-- The kernel's result with the layouts read back: the launches' operations on the flat arrays. -/
def flatK {F : FTy → Type} [FloatOps F] (a0 a1 a2 : S4000000.Idx → Elt F .f32) (a3 a4 a5 a6 : S8000000.Idx → Elt F .f32)
    (a7 a8 : S8000000.Idx → Elt F .i32) : S4000000.Idx → Elt F .f32 :=
  Region2.cmb S4000000
    (addf (seg a7 (Region1.rhs S8000000 (gath (Region0.ob S4000000 a0 a1) a7) (gath (Region0.ob S4000000 a0 a1) a8) a6 a5 a3 a4))
      (seg a8 (Region1.rhs S8000000 (gath (Region0.ob S4000000 a0 a1) a7) (gath (Region0.ob S4000000 a0 a1) a8) a6 a5 a3 a4)))
    (addf (seg a7 ones) (seg a8 ones))
    (subf (seg a7 a6) (seg a8 a6))
    a2

/-- The padding never reaches a kept entry: the kernel's result is the launches' operations on the flat arrays. -/
theorem kernelK_eq {F : FTy → Type} [FloatOps F] (a0 a1 a2 : S4000000.Idx → Elt F .f32) (a3 a4 a5 a6 : S8000000.Idx → Elt F .f32)
    (a7 a8 : S8000000.Idx → Elt F .i32) : kernelK a0 a1 a2 a3 a4 a5 a6 a7 a8 = flatK a0 a1 a2 a3 a4 a5 a6 a7 a8 := by
  unfold kernelK flatK rhsK obK
  rw [Layout.unpadN_cmb, Layout.unpadL_rhs, Layout.unpadN_ob]

open Cert.ReferenceIdeal.RefValue in
/-- At the ideal instance the reference's function is the kernel's, stage by stage. -/
theorem refK_eq (a0 a1 a2 : S4000000.Idx → Elt Ideal .f32) (a3 a4 a5 a6 : S8000000.Idx → Elt Ideal .f32)
    (a7 a8 : S8000000.Idx → Elt Ideal .i32) :
    refK (F := Ideal) a0 a1 a2 a3 a4 a5 a6 a7 a8 = flatK (F := Ideal) a0 a1 a2 a3 a4 a5 a6 a7 a8 := by
  have hob : obR (F := Ideal) a0 a1 = Region0.ob S4000000 a0 a1 := rfl
  have hg (x : S4000000.Idx → Elt Ideal .f32) (ix : S8000000.Idx → Elt Ideal .i32) : gathR (F := Ideal) x ix = gath x ix := rfl
  have hr (gh gt : S8000000.Idx → Elt Ideal .f32) :
      rhsR (F := Ideal) gh gt a3 a4 a5 a6 = Region1.rhs S8000000 gh gt a6 a5 a3 a4 := rfl
  have hs (ix : S8000000.Idx → Elt Ideal .i32) (u : S8000000.Idx → Elt Ideal .f32) : segR (F := Ideal) ix u = seg ix u := rfl
  have ho : onesR (F := Ideal) = ones := rfl
  have hc (ls cnt nf mw : S4000000.Idx → Elt Ideal .f32) : outR (F := Ideal) ls cnt nf mw = Region2.cmb S4000000 ls cnt nf mw := rfl
  unfold refK flatK
  rw [hob, hg, hg, hr, hs, hs, hs, hs, hs, hs, ho, hc]

end Cert.Bridge

end
-- ==== Proof.lean ====
/-
  The conduit-network right-hand side: a kernel of three launches against its jnp reference, equal over the
  extended reals.

  Both programs compute, from node arrays `h, p, w` (ice thickness, water pressure, meltwater input), link arrays
  `u, s, g, q` (sliding velocity, conduit area, hydraulic gradient, water flux) and the links' head and tail node numbers:
  the overburden `o = k h - p` at the nodes; the effective pressure `e = 0.5 (o[head] + o[tail])` at the links; the links'
  right-hand side `r = (c_m q) g + u 0.1 - (c_c ((e e) e)) s`; and at each node
  `(Σ_head r + Σ_tail r) / max(Σ_head 1 + Σ_tail 1, 1) + (Σ_head q - Σ_tail q) - w`.
  The reference does every step on the host over flat arrays. The kernel does the three entry-by-entry steps
  (`o`; `r` from the gathered overburden; the last combination) in launches over arrays reshaped to rows of 128 lanes and
  padded to a whole number of 3128-row blocks, and the gathers and scatter-adds on the host in between. A launch's
  result is its operation applied entry by entry, the result is cut back to the unpadded rows, and position `i` of a
  flat array is row `i / 128`, lane `i % 128` of its layout: so the padding never reaches a kept entry and the kernel's
  result is the same operations on the flat arrays. The two sides then agree operation by operation — both cube the
  effective pressure as `(e e) e`, and a quotient inside a launch and on the host are one operation on the extended reals
  — so no law of arithmetic beyond that is used, and finiteness of the inputs is not needed.

  The frames of the two kernel programs are the generated ones; the reference's frame is its generated run with the
  result dropped; nothing was rewritten by the ideal pass, so there is nothing to preserve.
-/
import proofs.«180901_j15341623181950_1_alg».proof.Defs
import proofs.«180901_j15341623181950_1_alg».proof.Proof.Gen.Kernel
import proofs.«180901_j15341623181950_1_alg».proof.Proof.Gen.Kernel.Skeleton
import proofs.«180901_j15341623181950_1_alg».proof.Proof.Gen.Kernel.Launch
import proofs.«180901_j15341623181950_1_alg».proof.Proof.Gen.Kernel.Points
import proofs.«180901_j15341623181950_1_alg».proof.Proof.Gen.Kernel.Frame
import proofs.«180901_j15341623181950_1_alg».proof.Proof.Gen.KernelIdeal
import proofs.«180901_j15341623181950_1_alg».proof.Proof.Gen.KernelIdeal.Skeleton
import proofs.«180901_j15341623181950_1_alg».proof.Proof.Gen.KernelIdeal.Launch
import proofs.«180901_j15341623181950_1_alg».proof.Proof.Gen.KernelIdeal.Points
import proofs.«180901_j15341623181950_1_alg».proof.Proof.Gen.KernelIdeal.Frame
import proofs.«180901_j15341623181950_1_alg».proof.Proof.Gen.ReferenceIdeal
import proofs.«180901_j15341623181950_1_alg».proof.Proof.Gen.ReferenceIdeal.Run
import proofs.«180901_j15341623181950_1_alg».proof.Proof.Gen.Pre_finite_inputs
import proofs.«180901_j15341623181950_1_alg».proof.Proof.KernelRun
import proofs.«180901_j15341623181950_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at one function of the arguments: the kernel's through its three launches and the
    padded layouts, the reference's through its host operations; the two functions agree at the ideal instance. -/
theorem algebraic : Cert.algebraic_KernelIdeal_ReferenceIdeal := by
  intro m ρ m' ρ' _ hagree
  refine ⟨fun c => Cert.KernelIdeal.Walk.kernelK (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Walk.value m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.res_eq, h0, h1, h2, h3, h4, h5, h6, h7, h8]
    exact (Cert.Bridge.refK_eq _ _ _ _ _ _ _ _ _).trans (Cert.Bridge.kernelK_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
